-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S12288x4096 : Shape := ⟨2, ![12288, 4096]⟩
abbrev S4x4096 : Shape := ⟨2, ![4, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_

variable [Facts]

def fn {F : FTy → Type} [FloatOps F] (main_arg0 : FVec F S4x4096x4096 .f32) (main_arg1 : FVec F S12288x4096 .f32) (main_arg2 : IVec S4x4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  main_v8
-- ==== Kernel.lean ====
abbrev S4x4096x4096 : Shape := ⟨3, ![4, 4096, 4096]⟩
abbrev S12288x4096 : Shape := ⟨2, ![12288, 4096]⟩
abbrev S4x4096 : Shape := ⟨2, ![4, 4096]⟩
abbrev S16384x4096 : Shape := ⟨2, ![16384, 4096]⟩
abbrev S16384x12288 : Shape := ⟨2, ![16384, 12288]⟩
abbrev S1024x1024 : Shape := ⟨2, ![1024, 1024]⟩
abbrev S16384x32x128 : Shape := ⟨3, ![16384, 32, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S12288x4096, .f32⟩
  | .hbm, ⟨2, _⟩ => ⟨S4x4096, .i32⟩
  | .hbm, ⟨3, _⟩ => ⟨S16384x4096, .f32⟩
  | .hbm, ⟨4, _⟩ => ⟨S16384x12288, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x32x128, .f32⟩
  | .hbm, ⟨9, _⟩ => ⟨S16384x32x128, .f32⟩
  | .hbm, ⟨10, _⟩ => ⟨S16384x32x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x4096x4096_S16384x4096 : S4x4096x4096.ShapeCasts S16384x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  slices_S16384x12288_S16384x4096_0_0 : S16384x12288.Slices ![0, 0] S16384x4096
  slices_S16384x12288_S16384x4096_0_4096 : S16384x12288.Slices ![0, 4096] S16384x4096
  slices_S16384x12288_S16384x4096_0_8192 : S16384x12288.Slices ![0, 8192] S16384x4096
  shapeCasts_S16384x4096_S16384x32x128 : S16384x4096.ShapeCasts S16384x32x128
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S12288x4096.size a
  hwx0_1 : ∀ i : grid0.Coords, EltTy.bits .f32 = 32 ∨ (Rect.block (s := S12288x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x12288.size a
  hwx0_2 : ∀ i : grid0.Coords, EltTy.bits .f32 = 32 ∨ (Rect.block (s := S16384x12288) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S12288x4096 : Shape := ⟨2, ![12288, 4096]⟩
abbrev S4x4096 : Shape := ⟨2, ![4, 4096]⟩
abbrev S4x4096x12288 : Shape := ⟨3, ![4, 4096, 12288]⟩
abbrev S16384x32x128 : Shape := ⟨3, ![16384, 32, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S12288x4096, .f32⟩
  | .hbm, ⟨2, _⟩ => ⟨S4x4096, .i32⟩
  | .hbm, ⟨3, _⟩ => ⟨S4x4096x12288, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S16384x32x128, .f32⟩
  | .hbm, ⟨8, _⟩ => ⟨S16384x32x128, .f32⟩
  | .hbm, ⟨9, _⟩ => ⟨S16384x32x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  slices_S4x4096x12288_S4x4096x4096_0_0_0 : S4x4096x12288.Slices ![0, 0, 0] S4x4096x4096
  slices_S4x4096x12288_S4x4096x4096_0_0_4096 : S4x4096x12288.Slices ![0, 0, 4096] S4x4096x4096
  slices_S4x4096x12288_S4x4096x4096_0_0_8192 : S4x4096x12288.Slices ![0, 0, 8192] S4x4096x4096
  shapeCasts_S4x4096x4096_S16384x32x128 : S4x4096x4096.ShapeCasts S16384x32x128
  dot_S4x4096x4096_S12288x4096_S4x4096x12288_2_1_01_0_n_n_wf : DotDims.WF S4x4096x4096 S12288x4096 S4x4096x12288 [2] [1] [0, 1] [0] [] []

variable [Facts₀]

def dot_S4x4096x4096_S12288x4096_S4x4096x12288_2_1_01_0_n_n : DotDims S4x4096x4096 S12288x4096 S4x4096x12288 where
  lhsContracting := [2]
  rhsContracting := [1]
  lhsNonContracting := [0, 1]
  rhsNonContracting := [0]
  lhsBatch := []
  rhsBatch := []
  wf := dot_S4x4096x4096_S12288x4096_S4x4096x12288_2_1_01_0_n_n_wf

class Facts : Prop extends Facts₀ where

variable [Facts]
-- ==== Proof.Pieces.lean ====
/-
  What the kernel body leaves behind at one grid point, as values.

  The body keeps a running total in a scratch block. At the first of a tile's four points it stores a block of zeros
  there; at every point it then loads the activation block `a`, the weight block `b` and the running total, and stores
  back the total plus the block product `a * bᵀ` (the casts to bf16 around the operands are the identity on the extended
  reals, and the product accumulates into a zero block); at the last of the four points it copies the total to the
  output block. So whatever the point, the scratch ends at `update a b old`, with `old` the zero block at a tile's
  first point and what the point before left otherwise; and at a tile's last point the output block ends at that
  same value. Entry (p, q) of `update a b old` is `old p q` plus the sum over the block's 1024 columns `kk` of
  `a p kk * b q kk`; every entry of the zero block is 0.
-/
import proofs.«162895_j84945863180967_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Qkv

open Idealize.ShloMosaic Idealize.ShloMosaic.TcCoe Idealize.SL.Sem Idealize.ShloMosaic.ValueIdx
open Cert.KernelIdeal Cert.KernelIdeal.Gen

variable {F : FTy → Type} [FloatOps F]

theorem zeroOff : (![0, 0] : Fin 2 → Nat) = fun _ => 0 := funext fun a => by fin_cases a <;> rfl

/-! ## The three cases -/

/-- A tile's first point: the scratch is zeroed, read back, and updated. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zeroOff]
  simp only [View.readAt_eq_ld, h3.read_unread, h4.read_unread, View.ld_unit_zero (S := S1024x1024) zeroOff,
    View.readCov_unit_zero (S := S1024x1024) _ zeroOff]

/-- A middle point: the scratch, holding `xs`, is updated. -/
theorem scratch_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x0 x1 xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) zeroOff]
  simp only [View.readAt_eq_ld, h3.read_unread, h4.read_unread, h6.read_unread, View.ld_unit_zero (S := S1024x1024) zeroOff]

/-- A tile's last point: the scratch is updated the same way, -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 x1 xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1024x1024) zeroOff]
  simp only [View.readAt_eq_ld, h3.read_unread, h4.read_unread, h6.read_unread, View.ld_unit_zero (S := S1024x1024) zeroOff]

/-- and the output block receives the updated scratch, read back. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 x1 xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) zeroOff]
  simp only [View.readAt_eq_ld, h3.read_unread, h4.read_unread, h6.read_unread, View.ld_unit_zero (S := S1024x1024) zeroOff,
    View.readCov_unit_zero (S := S1024x1024) _ zeroOff]

/-! ## The two stored values, entry by entry, on the extended reals -/

/-- Every entry of the block the reset stores is zero. -/
theorem zero_apply (j : S1024x1024.Idx) : k0_pay1 (F := Ideal) j = 0 := by
  unfold k0_pay1
  simp only [shapeCast_self]
  show Ideal.ofBits .f32 0x00000000#32 = 0
  exact Ideal.ofBits_zero_f32

/-- The block product contracts the second axis of both operands: at output entry (p, q) and contraction index `k` it reads
    the left operand at (p, k) -/
theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- and the right operand at (q, k). -/
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero block, entry by entry: row `p` of the left operand against row `q` of the right. -/
theorem blockProduct_apply (a b : Vec Ideal S1024x1024 .f32) (p q : Fin 1024) :
    matmul (F := Ideal) dot_S1024x1024_S1024x1024_S1024x1024_1_1_0_0_n_n none (truncf .bf16 a bitsLt_bf16_f32) (truncf .bf16 b bitsLt_bf16_f32)
        (constant S1024x1024 .f32 0x00000000#32) (ix2 p q)
      = ∑ kk : Fin 1024, a (ix2 p kk) * b (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun kk _ => ?_
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun a => Fin.ext (by
    match a with
    | ⟨0, _⟩ => exact rhs_0 _ _
    | ⟨1, _⟩ => exact (rhs_1 _ _).trans hk)
  rw [el, er]
  rfl

/-- The update, entry by entry: the old total plus the block product's entry. -/
theorem update_apply (a b old : Vec Ideal S1024x1024 .f32) (p q : Fin 1024) :
    k0_pay2 (F := Ideal) a b old (ix2 p q) = old (ix2 p q) + ∑ kk : Fin 1024, a (ix2 p kk) * b (ix2 q kk) := by
  unfold k0_pay2
  simp only [shapeCast_self]
  exact congrArg (old (ix2 p q) + ·) (blockProduct_apply a b p q)

end Cert.KernelIdeal.Qkv

end
-- ==== Proof.Spec.lean ====
/-
  The mathematics of the fused projection, stated with no program in sight.

  The kernel multiplies the flattened activations `X` (16384 rows of 4096) by the transposed weight `W` (12288 rows of
  4096): entry (r, n) of the product is the sum over the 4096 columns `k` of `X r k * W n k`. It does so in four steps
  of 1024 columns each, adding each step's 1024-term sum to a running total that starts at zero. This module names the
  whole sum (`dotRow`), one step's sum (`stepDot`), the running total after `j` steps (`runDot`), and proves that the
  running total after all four steps is the whole sum. Only commutativity and associativity of addition are used, so the
  law holds on the extended reals with no finiteness hypothesis.
-/
import Idealize.ShloMosaic.Lib.ValueIdx
import Mathlib.Algebra.BigOperators.Fin
import Mathlib.Algebra.BigOperators.Group.Finset.Basic
import Mathlib.Data.Fintype.BigOperators

noncomputable section

namespace Cert.Qkv

open Idealize.ShloMosaic Idealize.ShloMosaic.ValueIdx

/-- Column `kk` of column block `kb`: the blocks are 1024 wide and there are four of them. -/
def col (kb : Fin 4) (kk : Fin 1024) : Fin 4096 := ⟨kb.val * 1024 + kk.val, by have := kb.isLt; have := kk.isLt; omega⟩

theorem col_val (kb : Fin 4) (kk : Fin 1024) : (col kb kk).val = kb.val * 1024 + kk.val := rfl

/-- A column is a block and a place inside it, and conversely. -/
def colEquiv : Fin 4 × Fin 1024 ≃ Fin 4096 where
  toFun p := col p.1 p.2
  invFun k := (⟨k.val / 1024, by have := k.isLt; omega⟩, ⟨k.val % 1024, Nat.mod_lt _ (by decide)⟩)
  left_inv p := by
    obtain ⟨⟨a, ha⟩, ⟨b, hb⟩⟩ := p
    refine Prod.ext (Fin.ext ?_) (Fin.ext ?_)
    · show (a * 1024 + b) / 1024 = a; omega
    · show (a * 1024 + b) % 1024 = b; omega
  right_inv k := by
    apply Fin.ext
    show k.val / 1024 * 1024 + k.val % 1024 = k.val
    omega

/-- A sum over the 4096 columns is the sum, over the four blocks, of the sums over each block's 1024 columns. -/
theorem sum_cols {M : Type*} [AddCommMonoid M] (f : Fin 4096 → M) :
    ∑ k : Fin 4096, f k = ∑ kb : Fin 4, ∑ kk : Fin 1024, f (col kb kk) := by
  rw [← Equiv.sum_comp colEquiv f, Fintype.sum_prod_type]
  rfl

variable {M : Type*} [AddCommMonoid M] [Mul M]

/-- Entry (r, n) of the product: row `r` of `X` against row `n` of `W`, over all 4096 columns. -/
def dotRow (X : (⟨2, ![16384, 4096]⟩ : Shape).Idx → M) (W : (⟨2, ![12288, 4096]⟩ : Shape).Idx → M)
    (r : Fin 16384) (n : Fin 12288) : M :=
  ∑ k : Fin 4096, X (ix2 r k) * W (ix2 n k)

/-- The part of that sum that column block `kb` contributes. -/
def stepDot (X : (⟨2, ![16384, 4096]⟩ : Shape).Idx → M) (W : (⟨2, ![12288, 4096]⟩ : Shape).Idx → M)
    (r : Fin 16384) (n : Fin 12288) (kb : Fin 4) : M :=
  ∑ kk : Fin 1024, X (ix2 r (col kb kk)) * W (ix2 n (col kb kk))

/-- The running total after the first `j` column blocks. -/
def runDot (X : (⟨2, ![16384, 4096]⟩ : Shape).Idx → M) (W : (⟨2, ![12288, 4096]⟩ : Shape).Idx → M)
    (r : Fin 16384) (n : Fin 12288) (j : ℕ) : M :=
  ∑ kb : Fin 4, if kb.val < j then stepDot X W r n kb else 0

theorem runDot_zero (X : (⟨2, ![16384, 4096]⟩ : Shape).Idx → M) (W : (⟨2, ![12288, 4096]⟩ : Shape).Idx → M)
    (r : Fin 16384) (n : Fin 12288) : runDot X W r n 0 = 0 := by
  unfold runDot
  exact Finset.sum_eq_zero fun kb _ => if_neg (Nat.not_lt_zero _)

/-- One more block: the running total grows by that block's sum. -/
theorem runDot_succ (X : (⟨2, ![16384, 4096]⟩ : Shape).Idx → M) (W : (⟨2, ![12288, 4096]⟩ : Shape).Idx → M)
    (r : Fin 16384) (n : Fin 12288) (j : ℕ) (hj : j < 4) :
    runDot X W r n (j + 1) = runDot X W r n j + stepDot X W r n ⟨j, hj⟩ := by
  unfold runDot
  rw [Fin.sum_univ_four, Fin.sum_univ_four]
  interval_cases j <;> simp [add_assoc]

/-- After all four blocks the running total is the whole sum. -/
theorem runDot_four (X : (⟨2, ![16384, 4096]⟩ : Shape).Idx → M) (W : (⟨2, ![12288, 4096]⟩ : Shape).Idx → M)
    (r : Fin 16384) (n : Fin 12288) : runDot X W r n 4 = dotRow X W r n := by
  unfold runDot dotRow
  rw [sum_cols]
  exact Finset.sum_congr rfl fun kb _ => by rw [if_pos kb.isLt]; rfl

/-! ## The three results -/

/-- The activations come as 4 batches of 4096 positions; the kernel works on them flattened to 16384 rows. Row `r` of the
    flattening is position `r % 4096` of batch `r / 4096`. -/
def flat (H : (⟨3, ![4, 4096, 4096]⟩ : Shape).Idx → M) : (⟨2, ![16384, 4096]⟩ : Shape).Idx → M :=
  fun j => H (ix3 (⟨(j 0).val / 4096, by have := idx2_lt0 j; omega⟩ : Fin 4) (⟨(j 0).val % 4096, Nat.mod_lt _ (by decide)⟩ : Fin 4096) (j 1))

/-- The weight stacks the query, key and value matrices, 4096 rows each; within one, row `128 * hd + d` is
    coordinate `d` of head `hd`. -/
def headCol (j : Fin 3) (hd : Fin 32) (d : Fin 128) : Fin 12288 :=
  ⟨j.val * 4096 + hd.val * 128 + d.val, by have := j.isLt; have := hd.isLt; have := d.isLt; omega⟩

theorem headCol_val (j : Fin 3) (hd : Fin 32) (d : Fin 128) : (headCol j hd d).val = j.val * 4096 + hd.val * 128 + d.val := rfl

/-- Result `j` (0 the queries, 1 the keys, 2 the values) at row `r`, head `hd`, coordinate `d`: row `r` of the flattened
    activations against the weight's row for that head and coordinate. -/
def qkvHead (H : (⟨3, ![4, 4096, 4096]⟩ : Shape).Idx → M) (W : (⟨2, ![12288, 4096]⟩ : Shape).Idx → M) (j : Fin 3) :
    (⟨3, ![16384, 32, 128]⟩ : Shape).Idx → M :=
  fun i => dotRow (flat H) W (i 0) (headCol j (i 1) (i 2))

/-- The whole product as an array: what the kernel's one output holds before it is cut in three. -/
def product (X : (⟨2, ![16384, 4096]⟩ : Shape).Idx → M) (W : (⟨2, ![12288, 4096]⟩ : Shape).Idx → M) :
    (⟨2, ![16384, 12288]⟩ : Shape).Idx → M :=
  fun j => dotRow X W (j 0) (j 1)

end Cert.Qkv

end
-- ==== Proof.Tiles.lean ====
/-
  The running total, point by point.

  The grid has 16 x 12 x 4 points in row-major order: point `t` works on row tile `t / 48` of the activations, row tile
  `(t / 4) % 12` of the weight, and column block `t % 4` of both. Its activation block is rows
  `1024 * (t / 48) ..` and columns `1024 * (t % 4) ..` of the flattened activations `X`; its weight block is rows
  `1024 * ((t / 4) % 12) ..` and the same columns of `W`. By induction on the point, entry (p, q) of the scratch after
  point `t` is the running total, over column blocks `0 .. t % 4`, of row `1024 * (t / 48) + p` of `X` against row
  `1024 * ((t / 4) % 12) + q` of `W`: a tile's first point starts it from zero, and the three points after it have the
  same two row tiles and the next column block. At a tile's last point all four blocks are in, so the output block
  holds the whole sums.
-/
import proofs.«162895_j84945863180967_1_alg».proof.Proof.Pieces
import proofs.«162895_j84945863180967_1_alg».proof.Proof.Spec

noncomputable section

namespace Cert.KernelIdeal.Qkv

open Idealize.ShloMosaic Idealize.ShloMosaic.TcCoe Idealize.SL.Sem Idealize.ShloMosaic.ValueIdx
open Cert.KernelIdeal Cert.KernelIdeal.Gen Cert.Qkv

variable {F : FTy → Type} [FloatOps F]
variable (m : (ℓ : Loc nD τ sig) → Buf (Elt F) ℓ)

/-- Which tile each window is on at point `t`, decided over the grid. -/
theorem tile_facts : ∀ t : Fin cfg0.N,
    win0_0.index t (0 : Fin 2) = t.val / 48 ∧ win0_0.index t (1 : Fin 2) = t.val % 4
    ∧ win0_1.index t (0 : Fin 2) = t.val / 4 % 12 ∧ win0_1.index t (1 : Fin 2) = t.val % 4
    ∧ win0_2.index t (0 : Fin 2) = t.val / 48 ∧ win0_2.index t (1 : Fin 2) = t.val / 4 % 12 :=
  (by decide +kernel : ∀ t : Fin grid0.N, _)

/-- The flattened activations and the weight as the region finds them, and the two blocks of point `t`. -/
abbrev xarr (c : Dev nD) : Vec F S16384x4096 .f32 := V m c main_v0
abbrev warr (c : Dev nD) : Vec F S12288x4096 .f32 := V m c main_arg1
abbrev xblk (c : Dev nD) (t : Fin cfg0.N) : Vec F S1024x1024 .f32 := iblk m c 0 t
abbrev wblk (c : Dev nD) (t : Fin cfg0.N) : Vec F S1024x1024 .f32 := iblk m c 1 t

/-- Entry (p, kk) of the activation block is entry (1024 (t / 48) + p, 1024 (t % 4) + kk) of the activations. -/
theorem xblk_apply (c : Dev nD) (t : Fin cfg0.N) (p kk : Fin 1024) (r : Fin 16384) (k : Fin 4096)
    (hr : r.val = t.val / 48 * 1024 + p.val) (hk : k.val = t.val % 4 * 1024 + kk.val) :
    xblk m c t (ix2 p kk) = xarr m c (ix2 r k) := by
  show iblk m c 0 t (ix2 p kk) = V m c main_v0 (ix2 r k)
  unfold iblk
  rw [View.read_apply]
  show V m c main_v0 _ = V m c main_v0 _
  congr 1
  obtain ⟨e0, e1, -⟩ := tile_facts t
  funext a
  apply Fin.ext
  match a with
  | ⟨0, _⟩ => show win0_0.index t (0 : Fin 2) * 1024 + 1 * p.val = r.val; omega
  | ⟨1, _⟩ => show win0_0.index t (1 : Fin 2) * 1024 + 1 * kk.val = k.val; omega

/-- Entry (q, kk) of the weight block is entry (1024 ((t / 4) % 12) + q, 1024 (t % 4) + kk) of the weight. -/
theorem wblk_apply (c : Dev nD) (t : Fin cfg0.N) (q kk : Fin 1024) (n : Fin 12288) (k : Fin 4096)
    (hn : n.val = t.val / 4 % 12 * 1024 + q.val) (hk : k.val = t.val % 4 * 1024 + kk.val) :
    wblk m c t (ix2 q kk) = warr m c (ix2 n k) := by
  show iblk m c 1 t (ix2 q kk) = V m c main_arg1 (ix2 n k)
  unfold iblk
  rw [View.read_apply]
  show V m c main_arg1 _ = V m c main_arg1 _
  congr 1
  obtain ⟨-, -, e2, e3, -⟩ := tile_facts t
  funext a
  apply Fin.ext
  match a with
  | ⟨0, _⟩ => show win0_1.index t (0 : Fin 2) * 1024 + 1 * q.val = n.val; omega
  | ⟨1, _⟩ => show win0_1.index t (1 : Fin 2) * 1024 + 1 * kk.val = k.val; omega

/-! ## What the scratch and the output block hold after a point, through the update -/

/-- After a tile's first point: the update of the zero block. -/
theorem scratch_at_first (c : Dev nD) (t : Fin cfg0.N) (h0 : t.val % 4 = 0) :
    (outsAt0 m c t.val t.isLt).2 = k0_pay2 (xblk m c t) (wblk m c t) (k0_pay1 (F := F)) := by
  have h1 : ¬t.val % 4 = 3 := by omega
  rw [outsAt0_A m c t h0 h1]
  dsimp only
  exact scratch_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- After any other point: the update of what the point before left. -/
theorem scratch_at_next (c : Dev nD) (t : Fin cfg0.N) (h0 : ¬t.val % 4 = 0) :
    (outsAt0 m c t.val t.isLt).2
      = k0_pay2 (xblk m c t) (wblk m c t) (outsAt0 m c (t.val - 1) (Nat.lt_of_le_of_lt (Nat.sub_le _ _) t.isLt)).2 := by
  by_cases h1 : t.val % 4 = 3
  · rw [outsAt0_C m c t h0 h1]
    dsimp only
    exact scratch_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_middle c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- After a tile's last point the output block holds what the scratch holds. -/
theorem out_at_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (out_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (scratch_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Qkv

/-! ## The invariant, on the extended reals -/

namespace Cert.KernelIdeal.Qkv

open Idealize.ShloMosaic Idealize.ShloMosaic.TcCoe Idealize.SL.Sem Idealize.ShloMosaic.ValueIdx
open Cert.KernelIdeal Cert.KernelIdeal.Gen Cert.Qkv

variable (m : (ℓ : Loc nD τ sig) → Buf (Elt Ideal) ℓ)

/-- The array row that row `p` of point `n`'s activation tile is, and the weight row that row `q` of its weight tile is. -/
def tileRow (n : ℕ) (hn : n < cfg0.N) (p : Fin 1024) : Fin 16384 :=
  ⟨n / 48 * 1024 + p.val, by have hN : cfg0.N = 768 := N_0; have := p.isLt; omega⟩
def tileCol (n : ℕ) (hn : n < cfg0.N) (q : Fin 1024) : Fin 12288 :=
  ⟨n / 4 % 12 * 1024 + q.val, by have := q.isLt; omega⟩

/-- One point's block product is one column block's share of the row-against-row sum. -/
theorem blockSum_eq (c : Dev nD) (t : Fin cfg0.N) (p q : Fin 1024) (j : Fin 4) (hj : j.val = t.val % 4) :
    ∑ kk : Fin 1024, xblk m c t (ix2 p kk) * wblk m c t (ix2 q kk)
      = stepDot (xarr m c) (warr m c) (tileRow t.val t.isLt p) (tileCol t.val t.isLt q) j := by
  unfold stepDot
  refine Finset.sum_congr rfl fun kk _ => ?_
  exact congrArg₂ (· * ·)
    (xblk_apply m c t p kk (tileRow t.val t.isLt p) (col j kk) rfl (by rw [col_val, hj]))
    (wblk_apply m c t q kk (tileCol t.val t.isLt q) (col j kk) rfl (by rw [col_val, hj]))

/-- THE INVARIANT: the scratch after point `n` holds the running totals over column blocks `0 .. n % 4`. -/
theorem running (c : Dev nD) (n : ℕ) : ∀ (h : n < cfg0.N) (p q : Fin 1024),
    (outsAt0 m c n h).2 (ix2 p q)
      = runDot (xarr m c) (warr m c) (tileRow n h p) (tileCol n h q) (n % 4 + 1) := by
  have first : ∀ (t : Fin cfg0.N) (h0 : t.val % 4 = 0) (p q : Fin 1024),
      (outsAt0 m c t.val t.isLt).2 (ix2 p q)
        = runDot (xarr m c) (warr m c) (tileRow t.val t.isLt p) (tileCol t.val t.isLt q) (t.val % 4 + 1) := by
    intro t h0 p q
    refine (congrFun (scratch_at_first m c t h0) (ix2 p q)).trans ?_
    refine (update_apply (xblk m c t) (wblk m c t) (k0_pay1 (F := Ideal)) p q).trans ?_
    rw [zero_apply, blockSum_eq m c t p q ⟨0, by decide⟩ h0.symm, h0, runDot_succ _ _ _ _ 0 (by decide), runDot_zero]
  induction n with
  | zero => intro h p q; exact first ⟨0, h⟩ rfl p q
  | succ k ih =>
    intro h p q
    by_cases h0 : (k + 1) % 4 = 0
    · exact first ⟨k + 1, h⟩ h0 p q
    · have hk : k < cfg0.N := Nat.lt_of_succ_lt h
      have hj : (k + 1) % 4 < 4 := Nat.mod_lt _ (by decide)
      refine (congrFun (scratch_at_next m c ⟨k + 1, h⟩ h0) (ix2 p q)).trans ?_
      refine (update_apply (xblk m c ⟨k + 1, h⟩) (wblk m c ⟨k + 1, h⟩) _ p q).trans ?_
      have er : tileRow k hk p = tileRow (k + 1) h p := Fin.ext (by show k / 48 * 1024 + p.val = (k + 1) / 48 * 1024 + p.val; omega)
      have ec : tileCol k hk q = tileCol (k + 1) h q := Fin.ext (by show k / 4 % 12 * 1024 + q.val = (k + 1) / 4 % 12 * 1024 + q.val; omega)
      have ej : k % 4 + 1 = (k + 1) % 4 := by omega
      rw [blockSum_eq m c ⟨k + 1, h⟩ p q ⟨(k + 1) % 4, hj⟩ rfl, runDot_succ _ _ _ _ ((k + 1) % 4) hj]
      show (outsAt0 m c k hk).2 (ix2 p q) + _ = _
      rw [ih hk p q, er, ec, ej]

/-- After a tile's last point the output block holds the whole row-against-row sums. -/
theorem out_apply (c : Dev nD) (t : Fin cfg0.N) (h1 : t.val % 4 = 3) (p q : Fin 1024) :
    (outsAt0 m c t.val t.isLt).1 (ix2 p q)
      = dotRow (xarr m c) (warr m c) (tileRow t.val t.isLt p) (tileCol t.val t.isLt q) := by
  rw [out_at_last m c t h1, running m c t.val t.isLt p q, h1]
  exact runDot_four _ _ _ _

end Cert.KernelIdeal.Qkv

end
-- ==== Proof.Layout.lean ====
/-
  The two rearrangements around the product, read entry by entry.

  Before the product the activations [4, 4096, 4096] are reshaped to [16384, 4096]: row-major order is kept, so row `r`
  of the result is position `r % 4096` of batch `r / 4096` (`flat`). After it, columns `4096 j .. 4096 j + 4095` of the
  [16384, 12288] product are cut out and each row's 4096 entries are reshaped to 32 heads of 128: entry (r, hd, d) of
  result `j` is entry (r, 4096 j + 128 hd + d) of the product.
-/
import proofs.«162895_j84945863180967_1_alg».proof.Proof.Spec
import Idealize.ShloMosaic.Lib.Pipeline.Value

noncomputable section

namespace Cert.Qkv

open Idealize.ShloMosaic Idealize.ShloMosaic.ValueIdx

variable {M : Type}

/-- The reshape of the activations to 16384 rows is `flat`. -/
theorem flatten_eq (H : (⟨3, ![4, 4096, 4096]⟩ : Shape).Idx → M)
    (hc : (⟨3, ![4, 4096, 4096]⟩ : Shape).ShapeCasts ⟨2, ![16384, 4096]⟩) :
    shapeCast ⟨2, ![16384, 4096]⟩ H hc = flat H := by
  funext j
  have h0 : (j 0).val < 16384 := (j 0).isLt
  have h1 : (j 1).val < 4096 := (j 1).isLt
  refine (shapeCast_apply H hc j
    (ix3 (⟨(j 0).val / 4096, by omega⟩ : Fin 4) (⟨(j 0).val % 4096, Nat.mod_lt _ (by decide)⟩ : Fin 4096) (j 1)) (by
      rw [Shape.rowMajor_val_three, Shape.rowMajor_val_two]
      show ((j 0).val / 4096 * 4096 + (j 0).val % 4096) * 4096 + (j 1).val = (j 0).val * 4096 + (j 1).val
      omega)).trans ?_
  rfl

variable [AddCommMonoid M] [Mul M]

/-- Cutting columns `o = 4096 j` onwards out of the product and splitting each row into 32 heads of 128 gives, at
    (r, hd, d), row `r` of `X` against row `4096 j + 128 hd + d` of `W`. -/
theorem head_of_product (X : (⟨2, ![16384, 4096]⟩ : Shape).Idx → M) (W : (⟨2, ![12288, 4096]⟩ : Shape).Idx → M)
    (j : Fin 3) (o : ℕ) (ho : o = j.val * 4096)
    (hs : (⟨2, ![16384, 12288]⟩ : Shape).Slices ![0, o] ⟨2, ![16384, 4096]⟩)
    (hc : (⟨2, ![16384, 4096]⟩ : Shape).ShapeCasts ⟨3, ![16384, 32, 128]⟩) :
    shapeCast ⟨3, ![16384, 32, 128]⟩ (extractStridedSlice ⟨2, ![16384, 4096]⟩ ![0, o] (product X W) hs) hc
      = fun i => dotRow X W (i 0) (headCol j (i 1) (i 2)) := by
  subst ho
  funext i
  have h0 : (i 0).val < 16384 := (i 0).isLt
  have h1 : (i 1).val < 32 := (i 1).isLt
  have h2 : (i 2).val < 128 := (i 2).isLt
  refine (shapeCast_apply _ hc i (ix2 (i 0) (⟨(i 1).val * 128 + (i 2).val, by omega⟩ : Fin 4096)) (by
    rw [Shape.rowMajor_val_two, Shape.rowMajor_val_three]
    show (i 0).val * 4096 + ((i 1).val * 128 + (i 2).val) = ((i 0).val * 32 + (i 1).val) * 128 + (i 2).val
    omega)).trans ?_
  refine (extractStridedSlice_apply ![0, j.val * 4096] (product X W) hs _ (ix2 (i 0) (headCol j (i 1) (i 2))) (fun a =>
    match a with
    | ⟨0, _⟩ => by show (i 0).val = 0 + (i 0).val; omega
    | ⟨1, _⟩ => by show j.val * 4096 + (i 1).val * 128 + (i 2).val = j.val * 4096 + ((i 1).val * 128 + (i 2).val); omega)).trans ?_
  rfl

end Cert.Qkv

end
-- ==== Proof.Array.lean ====
/-
  From output blocks to the output array.

  The output's blocks tile the [16384, 12288] product: point `t` owns rows `1024 (t / 48) ..` and columns
  `1024 ((t / 4) % 12) ..`, and writes its block back only at a tile's last point (`t % 4 = 3`), when the block holds
  the whole row-against-row sums. So what each write-back writes is its block of ONE array, the product of the flattened
  activations with the weight; every entry (r, n) lies in the block written back at the point
  `((r / 1024) * 12 + n / 1024) * 4 + 3`; hence the array ends holding the product. The flattened activations are
  the reshape the program does before the call, and the weight is as launched.
-/
import proofs.«162895_j84945863180967_1_alg».proof.Proof.Tiles
import proofs.«162895_j84945863180967_1_alg».proof.Proof.Layout
import Idealize.ShloMosaic.Lib.StableHlo.Run

noncomputable section

namespace Cert.KernelIdeal.Qkv

open Idealize.ShloMosaic Idealize.ShloMosaic.TcCoe Idealize.SL.Sem Idealize.ShloMosaic.ValueIdx
open Idealize.ShloMosaic.Pipeline (Dat)
open Cert.KernelIdeal Cert.KernelIdeal.Gen Cert.Qkv

variable (m : (ℓ : Loc nD τ sig) → Buf (Elt Ideal) ℓ)

/-- Entry (p, q) of point `t`'s output block sits in the array at that tile's row and column. -/
theorem outBlock_emb (t : Fin cfg0.N) (p q : Fin 1024) :
    ((cfg0.win 2).blk t).view.emb (ix2 p q) = ix2 (tileRow t.val t.isLt p) (tileCol t.val t.isLt q) := by
  obtain ⟨-, -, -, -, e4, e5⟩ := tile_facts t
  funext a
  apply Fin.ext
  match a with
  | ⟨0, _⟩ => show win0_2.index t (0 : Fin 2) * 1024 + 1 * p.val = t.val / 48 * 1024 + p.val; omega
  | ⟨1, _⟩ => show win0_2.index t (1 : Fin 2) * 1024 + 1 * q.val = t.val / 4 % 12 * 1024 + q.val; omega

/-- The product of the flattened activations with the weight, as contents of the output array. -/
abbrev outArr (c : Dev nD) : Vec Ideal S16384x12288 .f32 := product (xarr m c) (warr m c)

/-- What a write-back writes is its block of the product. -/
theorem flushed_eq (c : Dev nD) (t : Fin cfg0.N) (hf : (cfg0.win 2).flush t = true) :
    (dats m 0 c).flushed 2 t = ((cfg0.win 2).blk t).view.read (Elt Ideal) (outArr m c) := by
  have h3 : t.val % 4 = 3 := (flush0_2 t).mp hf
  show (cfg0.win 2).cut (grid0.coords t) ((dats m 0 c).after 2 t) = _
  rw [after0_2]
  funext j
  obtain ⟨p, q, rfl⟩ : ∃ (p q : Fin 1024), j = ix2 p q := ⟨j 0, j 1, eq_ix2 j⟩
  show (outsAt0 m c t.val t.isLt).1 (ix2 p q) = outArr m c (((cfg0.win 2).blk t).view.emb (ix2 p q))
  rw [out_apply m c t h3 p q, outBlock_emb]
  rfl

/-- An entry of the array is in point `t`'s block iff each coordinate is in the block's range on its axis. -/
theorem mem_outBlock (t : Fin cfg0.N) (i : S16384x12288.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry is in a block that is written back. -/
theorem covered (i : S16384x12288.Idx) :
    ∃ t : Fin cfg0.N, (cfg0.win 2).flush t = true ∧ i ∈ ((cfg0.win 2).blk t).view.set := by
  have hN : cfg0.N = 768 := N_0
  have h0 : (i 0).val < 16384 := (i 0).isLt
  have h1 : (i 1).val < 12288 := (i 1).isLt
  have hlt : ((i 0).val / 1024 * 12 + (i 1).val / 1024) * 4 + 3 < cfg0.N := by omega
  obtain ⟨-, -, -, -, e4, e5⟩ := tile_facts ⟨((i 0).val / 1024 * 12 + (i 1).val / 1024) * 4 + 3, hlt⟩
  refine ⟨⟨((i 0).val / 1024 * 12 + (i 1).val / 1024) * 4 + 3, hlt⟩, (flush0_2 _).mpr (by show (((i 0).val / 1024 * 12 + (i 1).val / 1024) * 4 + 3) % 4 = 3; omega), ?_⟩
  rw [mem_outBlock]
  dsimp only at e4 e5
  intro a
  match a with
  | ⟨0, _⟩ =>
    show win0_2.index ⟨((i 0).val / 1024 * 12 + (i 1).val / 1024) * 4 + 3, hlt⟩ (0 : Fin 2) * 1024 ≤ (i 0).val ∧ (i 0).val < win0_2.index ⟨((i 0).val / 1024 * 12 + (i 1).val / 1024) * 4 + 3, hlt⟩ (0 : Fin 2) * 1024 + 1024
    omega
  | ⟨1, _⟩ =>
    show win0_2.index ⟨((i 0).val / 1024 * 12 + (i 1).val / 1024) * 4 + 3, hlt⟩ (1 : Fin 2) * 1024 ≤ (i 1).val ∧ (i 1).val < win0_2.index ⟨((i 0).val / 1024 * 12 + (i 1).val / 1024) * 4 + 3, hlt⟩ (1 : Fin 2) * 1024 + 1024
    omega

/-- THE OUTPUT ARRAY after the run is the product. -/
theorem product_array (c : Dev nD) : (dats m 0 c).arrAt 2 cfg0.N = outArr m c :=
  (dats m 0 c).arrAt_eq_of_cover 2 (outArr m c) (fun t hf => flushed_eq m c t hf) covered

/-- The activations the region finds are the launched ones, flattened; -/
theorem xarr_eq (c : Dev nD) : xarr m c = flat (m ((c : Thread nD τ).loc main_arg0)) := by
  have e : (V m c main_v0 : S16384x4096.Idx → Elt Ideal .f32)
      = shapeCast S16384x4096 (m ((c : Thread nD τ).loc main_arg0)) shapeCasts_S4x4096x4096_S16384x4096 := by
    show StableHlo.after hostOps0 (fun b => m (c, b)) (Proc.devRef .tc main_v0) = _
    after_results
    rfl
  exact e.trans (flatten_eq _ _)

/-- the weight is as launched. -/
theorem warr_eq (c : Dev nD) : warr m c = m ((c : Thread nD τ).loc main_arg1) := V_main_arg1 m c

end Cert.KernelIdeal.Qkv

end
-- ==== Proof.KernelRun.lean ====
/-
  The kernel's run, read.

  After the call the program cuts the output array's columns into three runs of 4096 and reshapes each to
  [16384, 32, 128]. The output array holds the product of the flattened activations with the weight, so result `j` at
  (r, hd, d) is row `r` of the flattened activations against row `4096 j + 128 hd + d` of the weight; and the three
  arguments end as launched.
-/
import proofs.«162895_j84945863180967_1_alg».proof.Proof.Array

noncomputable section

namespace Cert.KernelIdeal.Qkv

open Idealize.ShloMosaic Idealize.ShloMosaic.TcCoe Idealize.SL.Sem Idealize.ShloMosaic.ValueIdx
open Idealize.ShloMosaic.Pipeline (Dat)
open Cert.KernelIdeal Cert.KernelIdeal.Gen Cert.Qkv

variable (m : (ℓ : Loc nD τ sig) → Buf (Elt Ideal) ℓ) (ρ : Dev nD → PrngReg)

/-- The launched activations and weight, and result `j` as it should be: row `r` of the flattened activations against
    row `4096 j + 128 hd + d` of the weight. -/
abbrev act (c : Dev nD) : Vec Ideal S4x4096x4096 .f32 := m ((c : Thread nD τ).loc main_arg0)
abbrev wgt (c : Dev nD) : Vec Ideal S12288x4096 .f32 := m ((c : Thread nD τ).loc main_arg1)
abbrev result (c : Dev nD) (j : Fin 3) : Vec Ideal S16384x32x128 .f32 := qkvHead (act m c) (wgt m c) j

/-- The first result: columns 0 .. 4095 of the product, by heads. -/
theorem tail_query (c : Dev nD) :
    Pipeline.afterTail₀ cfgs (dats m) 0 (V0 m) [hostOps1] c main_v5 = result m c 0 := by
  have e : Pipeline.afterTail₀ cfgs (dats m) 0 (V0 m) [hostOps1] c main_v5
      = shapeCast S16384x32x128 (extractStridedSlice S16384x4096 ![0, 0] ((dats m 0 c).arrAt 2 cfg0.N)
          slices_S16384x12288_S16384x4096_0_0) shapeCasts_S16384x4096_S16384x32x128 := by
    unfold Pipeline.afterTail₀
    show StableHlo.after hostOps1 _ (Proc.devRef .tc main_v5) = _
    after_results
    rw [Pipeline.withArrays_arr spec0 launch0.win.arr_inj c _ _ 2]
    rfl
  rw [e, product_array]
  refine (head_of_product (xarr m c) (warr m c) 0 0 rfl _ _).trans ?_
  rw [xarr_eq, warr_eq]
  rfl

/-- The second: columns 4096 .. 8191. -/
theorem tail_key (c : Dev nD) :
    Pipeline.afterTail₀ cfgs (dats m) 0 (V0 m) [hostOps1] c main_v6 = result m c 1 := by
  have e : Pipeline.afterTail₀ cfgs (dats m) 0 (V0 m) [hostOps1] c main_v6
      = shapeCast S16384x32x128 (extractStridedSlice S16384x4096 ![0, 4096] ((dats m 0 c).arrAt 2 cfg0.N)
          slices_S16384x12288_S16384x4096_0_4096) shapeCasts_S16384x4096_S16384x32x128 := by
    unfold Pipeline.afterTail₀
    show StableHlo.after hostOps1 _ (Proc.devRef .tc main_v6) = _
    after_results
    rw [Pipeline.withArrays_arr spec0 launch0.win.arr_inj c _ _ 2]
    rfl
  rw [e, product_array]
  refine (head_of_product (xarr m c) (warr m c) 1 4096 rfl _ _).trans ?_
  rw [xarr_eq, warr_eq]
  rfl

/-- The third: columns 8192 .. 12287. -/
theorem tail_value (c : Dev nD) :
    Pipeline.afterTail₀ cfgs (dats m) 0 (V0 m) [hostOps1] c main_v7 = result m c 2 := by
  have e : Pipeline.afterTail₀ cfgs (dats m) 0 (V0 m) [hostOps1] c main_v7
      = shapeCast S16384x32x128 (extractStridedSlice S16384x4096 ![0, 8192] ((dats m 0 c).arrAt 2 cfg0.N)
          slices_S16384x12288_S16384x4096_0_8192) shapeCasts_S16384x4096_S16384x32x128 := by
    unfold Pipeline.afterTail₀
    show StableHlo.after hostOps1 _ (Proc.devRef .tc main_v7) = _
    after_results
    rw [Pipeline.withArrays_arr spec0 launch0.win.arr_inj c _ _ 2]
    rfl
  rw [e, product_array]
  refine (head_of_product (xarr m c) (warr m c) 2 8192 rfl _ _).trans ?_
  rw [xarr_eq, warr_eq]
  rfl

/-- Every weakly fair execution of the idealized kernel program ends with the three results at `result` of the launched
    activations and weight, and the arguments unchanged. -/
theorem run : θ_run defs (onTc (τ := τ) (main (F := Ideal))) ⟨m, fun _ => 0, ρ⟩ fun r => ∀ c : Dev nD,
      r.2.mem ((c.tc : Thread nD τ).loc main_v5) = result m c 0
      ∧ r.2.mem ((c.tc : Thread nD τ).loc main_v6) = result m c 1
      ∧ r.2.mem ((c.tc : Thread nD τ).loc main_v7) = result m c 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v5 (Pipeline.mem_restRefs_of main_v5 (by decide) (by decide))).trans (tail_query m c),
      ((h c).2 main_v6 (Pipeline.mem_restRefs_of main_v6 (by decide) (by decide))).trans (tail_key m c),
      ((h c).2 main_v7 (Pipeline.mem_restRefs_of main_v7 (by decide) (by decide))).trans (tail_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Qkv

end
-- ==== Proof.RefValue.lean ====
/-
  The reference's three results, entry by entry.

  The reference contracts the last axis of the activations [4, 4096, 4096] with the last axis of the weight
  [12288, 4096], cuts the result's last axis into three runs of 4096, and reshapes each [4, 4096, 4096] piece to
  [16384, 32, 128]. The reshape keeps row-major order, so entry (r, hd, d) of piece `j` comes from batch `r / 4096`,
  position `r % 4096` and column `128 hd + d` of the piece, that is column `4096 j + 128 hd + d` of the contraction:
  the sum over `k` of the activations at (r / 4096, r % 4096, k) times the weight at (4096 j + 128 hd + d, k). That is
  row `r` of the flattened activations against that row of the weight.
-/
import proofs.«162895_j84945863180967_1_alg».proof.Proof.Gen.ReferenceIdeal.Read
import proofs.«162895_j84945863180967_1_alg».proof.Proof.Spec

noncomputable section

namespace Cert.ReferenceIdeal.Qkv

open Idealize.ShloMosaic Idealize.ShloMosaic.ValueIdx
open Cert.ReferenceIdeal Cert.ReferenceIdeal.Read Cert.Qkv

/-- The contraction at an entry whose batch, position and column are those of result entry `i` and weight row `n`. -/
theorem contraction_at (H : (⟨S4x4096x4096, .f32⟩ : BufTy).Contents (Elt Ideal)) (W : (⟨S12288x4096, .f32⟩ : BufTy).Contents (Elt Ideal))
    (i : S16384x32x128.Idx) (n : Fin 12288) (i' : S4x4096x12288.Idx)
    (e0 : (i' 0).val = (i 0).val / 4096) (e1 : (i' 1).val = (i 0).val % 4096) (e2 : (i' 2).val = n.val) :
    val_main_v0 (F := Ideal) H W i' = dotRow (flat H) W (i 0) n := by
  rw [val_main_v0_apply]
  unfold dotRow
  refine Finset.sum_congr rfl fun k _ => ?_
  have h0 : (i 0).val < 16384 := (i 0).isLt
  have el : lidx_main_v0 i' k
      = ix3 (⟨(i 0).val / 4096, by omega⟩ : Fin 4) (⟨(i 0).val % 4096, Nat.mod_lt _ (by decide)⟩ : Fin 4096) k :=
    funext fun a => Fin.ext (by
      match a with
      | ⟨0, _⟩ => exact e0
      | ⟨1, _⟩ => exact e1
      | ⟨2, _⟩ => rfl)
  have er : ridx_main_v0 i' k = ix2 n k :=
    funext fun a => Fin.ext (by
      match a with
      | ⟨0, _⟩ => exact e2
      | ⟨1, _⟩ => rfl)
  rw [el, er]
  rfl

variable (H : (⟨S4x4096x4096, .f32⟩ : BufTy).Contents (Elt Ideal)) (W : (⟨S12288x4096, .f32⟩ : BufTy).Contents (Elt Ideal))

/-- The queries: columns 0 .. 4095. -/
theorem query_eq : val_main_v4 (F := Ideal) H W = qkvHead H W 0 := by
  funext i
  have h0 : (i 0).val < 16384 := (i 0).isLt
  have h1 : (i 1).val < 32 := (i 1).isLt
  have h2 : (i 2).val < 128 := (i 2).isLt
  rw [val_main_v4_apply, val_main_v1_apply]
  exact contraction_at H W i (headCol 0 (i 1) (i 2)) _
    (by show (((i 0).val * 32 + (i 1).val) * 128 + (i 2).val) / 16777216 = (i 0).val / 4096; omega)
    (by show (((i 0).val * 32 + (i 1).val) * 128 + (i 2).val) / 4096 % 4096 = (i 0).val % 4096; omega)
    (by show (((i 0).val * 32 + (i 1).val) * 128 + (i 2).val) % 4096 = 0 * 4096 + (i 1).val * 128 + (i 2).val; omega)

/-- The keys: columns 4096 .. 8191. -/
theorem key_eq : val_main_v5 (F := Ideal) H W = qkvHead H W 1 := by
  funext i
  have h0 : (i 0).val < 16384 := (i 0).isLt
  have h1 : (i 1).val < 32 := (i 1).isLt
  have h2 : (i 2).val < 128 := (i 2).isLt
  rw [val_main_v5_apply, val_main_v2_apply]
  exact contraction_at H W i (headCol 1 (i 1) (i 2)) _
    (by show (((i 0).val * 32 + (i 1).val) * 128 + (i 2).val) / 16777216 = (i 0).val / 4096; omega)
    (by show (((i 0).val * 32 + (i 1).val) * 128 + (i 2).val) / 4096 % 4096 = (i 0).val % 4096; omega)
    (by show 4096 + (((i 0).val * 32 + (i 1).val) * 128 + (i 2).val) % 4096 = 1 * 4096 + (i 1).val * 128 + (i 2).val; omega)

/-- The values: columns 8192 .. 12287. -/
theorem value_eq : val_main_v6 (F := Ideal) H W = qkvHead H W 2 := by
  funext i
  have h0 : (i 0).val < 16384 := (i 0).isLt
  have h1 : (i 1).val < 32 := (i 1).isLt
  have h2 : (i 2).val < 128 := (i 2).isLt
  rw [val_main_v6_apply, val_main_v3_apply]
  exact contraction_at H W i (headCol 2 (i 1) (i 2)) _
    (by show (((i 0).val * 32 + (i 1).val) * 128 + (i 2).val) / 16777216 = (i 0).val / 4096; omega)
    (by show (((i 0).val * 32 + (i 1).val) * 128 + (i 2).val) / 4096 % 4096 = (i 0).val % 4096; omega)
    (by show 8192 + (((i 0).val * 32 + (i 1).val) * 128 + (i 2).val) % 4096 = 2 * 4096 + (i 1).val * 128 + (i 2).val; omega)

end Cert.ReferenceIdeal.Qkv

end
-- ==== Proof.lean ====
/-
  The fused query / key / value projection, against its einsum reference.

  The kernel flattens the activations [4, 4096, 4096] to 16384 rows `X`, multiplies them by the transposed weight
  `W` [12288, 4096] tile by tile (tiles of 1024 x 1024, the contraction's 4096 columns taken in four blocks of 1024
  added one after another to a scratch block that starts each tile at zero), cuts the [16384, 12288] product into three
  runs of 4096 columns and reshapes each to [16384, 32, 128]. The reference contracts the unflattened activations with
  the weight in one go (`bse,fe->bsf`), cuts and reshapes the same way. On the extended reals the casts to bf16 are the
  identity and the block product into a zero block is a plain sum, so the kernel's entry (r, n) of the product is
  `((0 + s₀) + s₁) + s₂ + s₃` with `sⱼ` the sum over column block `j` of `X r k * W n k`, which is the sum over all 4096
  columns: addition of extended reals is commutative and associative, and nothing else is used, so the inputs'
  finiteness is never needed. Both programs' result `j` at (r, hd, d) is therefore row `r` of the flattened
  activations against row `4096 j + 128 hd + d` of the weight (`Cert.Qkv.qkvHead`).

  Modules: Spec (the sums and the regrouping law), Pieces (what the body leaves at one point, as values), Tiles (where a
  point's tile sits; the running total by induction on the point), Layout (the reshape before and the cut and reshape
  after the product, entry by entry), Array (output blocks to output array), KernelRun (the kernel's run read),
  RefValue (the reference's three results entry by entry). The three frames are the generated ones (the reference's is
  its run with the results dropped); the ideal pass rewrote nothing, so `preserves` is `True`.
-/
import proofs.«162895_j84945863180967_1_alg».proof.Defs
import proofs.«162895_j84945863180967_1_alg».proof.Proof.Gen.Kernel
import proofs.«162895_j84945863180967_1_alg».proof.Proof.Gen.Kernel.Frame
import proofs.«162895_j84945863180967_1_alg».proof.Proof.Gen.KernelIdeal
import proofs.«162895_j84945863180967_1_alg».proof.Proof.Gen.KernelIdeal.Frame
import proofs.«162895_j84945863180967_1_alg».proof.Proof.Gen.ReferenceIdeal
import proofs.«162895_j84945863180967_1_alg».proof.Proof.Gen.ReferenceIdeal.Run
import proofs.«162895_j84945863180967_1_alg».proof.Proof.Gen.Pre_finite_inputs
import proofs.«162895_j84945863180967_1_alg».proof.Proof.KernelRun
import proofs.«162895_j84945863180967_1_alg».proof.Proof.RefValue
import Idealize.ShloMosaic.Adequacy
import Idealize.ShloMosaic.Init

noncomputable section

namespace Cert.Proof

open Idealize.ShloMosaic Idealize.SL.Sem Cert.Qkv

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the three results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

theorem preserves : Cert.preserves_Kernel_KernelIdeal := trivial

/-- Both programs end with result `j` at `qkvHead` of the (agreeing) activations and weight. -/
theorem algebraic : Cert.algebraic_KernelIdeal_ReferenceIdeal := by
  intro m ρ m' ρ' _ hagree
  refine ⟨fun c => Cert.KernelIdeal.Qkv.result m c 0, fun c => Cert.KernelIdeal.Qkv.result m c 1,
    fun c => Cert.KernelIdeal.Qkv.result m c 2, Cert.KernelIdeal.Qkv.run m ρ, ?_⟩
  refine (θ_run Cert.ReferenceIdeal.defs _ _).mono (fun _ h c => ?_) (Cert.ReferenceIdeal.Value.run (F := Ideal) m' ρ')
  obtain ⟨r4, r5, r6, a0, a1, a2⟩ := h c
  refine ⟨r4.trans ?_, r5.trans ?_, r6.trans ?_, a0, a1, a2⟩
  · rw [Cert.ReferenceIdeal.Read.val_main_v4_eq, Cert.ReferenceIdeal.Qkv.query_eq, (hagree c).1, (hagree c).2.1]
  · rw [Cert.ReferenceIdeal.Read.val_main_v5_eq, Cert.ReferenceIdeal.Qkv.key_eq, (hagree c).1, (hagree c).2.1]
  · rw [Cert.ReferenceIdeal.Read.val_main_v6_eq, Cert.ReferenceIdeal.Qkv.value_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
